-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S16 : Shape := ⟨1, ![16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S4x2048x4096 .f32) (main_arg1 : IVec S4096x2048 32) (main_arg2 : FVec F S4096x32 .f32) (main_arg3 : FVec F S4096 .f32) (main_arg4 : IVec S4096 32) (main_arg5 : FVec F S16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S16 : Shape := ⟨1, ![16]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x4096x1 : Shape := ⟨3, ![4096, 4096, 1]⟩
abbrev S4096x1 : Shape := ⟨2, ![4096, 1]⟩
abbrev S1x4096 : Shape := ⟨2, ![1, 4096]⟩
abbrev S8192x4096 : Shape := ⟨2, ![8192, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩
abbrev S512x2048 : Shape := ⟨2, ![512, 2048]⟩

abbrev nBuf : Space → Nat
  | .hbm => 43
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096, .f32⟩
  | .hbm, ⟨4, _⟩ => ⟨S4096, .i32⟩
  | .hbm, ⟨5, _⟩ => ⟨S16, .f32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i32⟩
  | .hbm, ⟨15, _⟩ => ⟨S4096x2048x1, .i32⟩
  | .hbm, ⟨16, _⟩ => ⟨S4096x2048x1, .i32⟩
  | .hbm, ⟨17, _⟩ => ⟨S4096x2048x2, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S4096x4096x1, .i32⟩
  | .hbm, ⟨27, _⟩ => ⟨S4096x4096, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S4096_S1x4096 : S4096.ShapeCasts S1x4096
  shapeCasts_S4x2048x4096_S8192x4096 : S4x2048x4096.ShapeCasts S8192x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  transposes_S2048x512_p1_0_S512x2048 : S2048x512.Transposes [1, 0] S512x2048
  shapeCasts_S8192x4096_S4x2048x4096 : S8192x4096.ShapeCasts S4x2048x4096
  gather_S16_S4096x4096x1_S4096x4096_n_0_n_n_0_2_1_wf : GatherDims.WF S16 S4096x4096x1 S4096x4096 [] [0] [] [0] [] 2 ![1]
  gather_S4096x32_S4096x1_S4096x4096_0_1_n_n_1_1_40961_wf : GatherDims.WF S4096x32 S4096x1 S4096x4096 [0] [1] [] [1] [] 1 ![4096, 1]
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def gather_S4096x32_S4096x1_S4096x4096_0_1_n_n_1_1_40961 : GatherDims S4096x32 S4096x1 S4096x4096 where
  offsetDims := [0]
  collapsedSliceDims := [1]
  operandBatchingDims := []
  startIndicesBatchingDims := []
  startIndexMap := [1]
  indexVectorDim := 1
  sliceSizes := ![4096, 1]
  wf := gather_S4096x32_S4096x1_S4096x4096_0_1_n_n_1_1_40961_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v27) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S16 : Shape := ⟨1, ![16]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x4096x1 : Shape := ⟨3, ![4096, 4096, 1]⟩
abbrev S4096x1 : Shape := ⟨2, ![4096, 1]⟩
abbrev S1x1x4096 : Shape := ⟨3, ![1, 1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096, .f32⟩
  | .hbm, ⟨4, _⟩ => ⟨S4096, .i32⟩
  | .hbm, ⟨5, _⟩ => ⟨S16, .f32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i32⟩
  | .hbm, ⟨15, _⟩ => ⟨S4096x2048x1, .i32⟩
  | .hbm, ⟨16, _⟩ => ⟨S4096x2048x1, .i32⟩
  | .hbm, ⟨17, _⟩ => ⟨S4096x2048x2, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S4096x4096x1, .i32⟩
  | .hbm, ⟨27, _⟩ => ⟨S4096x4096, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x4096, .f32⟩
  | .hbm, ⟨37, _⟩ => ⟨S4096x4096, .f32⟩
  | .hbm, ⟨38, _⟩ => ⟨S4x2048x4096, .f32⟩
  | .hbm, ⟨39, _⟩ => ⟨S1x1x4096, .f32⟩
  | .hbm, ⟨40, _⟩ => ⟨S4x2048x4096, .f32⟩
  | .hbm, ⟨41, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S4096x4096x1_S4096x4096_n_0_n_n_0_2_1_wf : GatherDims.WF S16 S4096x4096x1 S4096x4096 [] [0] [] [0] [] 2 ![1]
  gather_S4096x32_S4096x1_S4096x4096_0_1_n_n_1_1_40961_wf : GatherDims.WF S4096x32 S4096x1 S4096x4096 [0] [1] [] [1] [] 1 ![4096, 1]
  dot_S4x2048x4096_S4096x4096_S4x2048x4096_2_1_01_0_n_n_wf : DotDims.WF S4x2048x4096 S4096x4096 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def gather_S4096x32_S4096x1_S4096x4096_0_1_n_n_1_1_40961 : GatherDims S4096x32 S4096x1 S4096x4096 where
  offsetDims := [0]
  collapsedSliceDims := [1]
  operandBatchingDims := []
  startIndicesBatchingDims := []
  startIndexMap := [1]
  indexVectorDim := 1
  sliceSizes := ![4096, 1]
  wf := gather_S4096x32_S4096x1_S4096x4096_0_1_n_n_1_1_40961_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one visit of the grid leaves in the output tile, as a value.

  The kernel keeps a [1024, 2048] tile of the result in its output buffer across the eight visits that share one
  (row tile, column tile) pair. The first of the eight stores the bias row, repeated down the 1024 rows, and then adds
  the partial product of that visit's [1024, 512] slab of the activations with the transposed [2048, 512] slab of the
  weights; each later visit adds its partial product to what the visit before left. Both facts are read off the
  covering stores: the last store covers the whole tile, so the tile holds that store's value, and the value the
  first visit loads back is the bias tile it has just stored.
-/
import proofs.«425820_j26534307954843_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem origin2 : (![0, 0] : Fin 2 → Nat) = fun _ => 0 := funext fun a => by fin_cases a <;> rfl

/-- A later visit: the tile holding `acc` ends holding `acc` plus the visit's partial product. -/
theorem later_visit (c : Dev nD) (i : grid0.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole) (hc0 : ¬cond0_0 i)
    (x0 : Vec F S1024x512 .f32) (x1 : Vec F S2048x512 .bf16) (x2 : Vec F S1x2048 .f32) (acc : Vec F S1024x2048 .f32) :
    out0_B_3 c i arg3 harg3 arg4 harg4 arg5 harg5 arg6 harg6 hc0 x0 x1 x2 acc = k0_pay2 x0 x1 acc := by
  unfold out0_B_3
  rw [View.read_writes_eq_canon _ _ _ (cover0_B_3 c i arg3 harg3 arg4 harg4 arg5 harg5 arg6 harg6 hc0 x0 x1 x2 acc)]
  unfold kernelRun0_B
  dsimp only
  sl_unfold_words
  rw [View.canon_unit_zero origin2]
  simp only [View.readAt_eq_ld, harg3.read_unread, harg4.read_unread, harg6.read_unread,
    View.ld_unit_zero (S := S1024x512) origin2, View.ld_unit_zero (S := S2048x512) origin2,
    View.ld_unit_zero (S := S1024x2048) origin2]

/-- The first visit of a tile: it ends holding the bias tile plus the visit's partial product. -/
theorem first_visit (c : Dev nD) (i : grid0.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole) (hc0 : cond0_0 i)
    (x0 : Vec F S1024x512 .f32) (x1 : Vec F S2048x512 .bf16) (x2 : Vec F S1x2048 .f32) :
    out0_A_3 c i arg3 harg3 arg4 harg4 arg5 harg5 arg6 harg6 hc0 x0 x1 x2 = k0_pay2 x0 x1 (k0_pay1 x2) := by
  unfold out0_A_3
  rw [View.read_writes_eq_canon _ _ _ (cover0_A_3 c i arg3 harg3 arg4 harg4 arg5 harg5 arg6 harg6 hc0 x0 x1 x2)]
  unfold kernelRun0_A
  dsimp only
  sl_unfold_words
  rw [View.canon_cons_unit_zero (S := S1024x2048) origin2, View.readCov_unit_zero (S := S1024x2048) _ origin2]
  simp only [View.readAt_eq_ld, harg3.read_unread, harg4.read_unread, harg5.read_unread,
    View.ld_unit_zero (S := S1024x512) origin2, View.ld_unit_zero (S := S2048x512) origin2,
    View.ld_unit_zero (S := S1x2048) origin2]

end Cert.KernelIdeal.Acc

end
-- ==== Proof.Spec.lean ====
/-
  The mathematics of the quantized linear layer, with no program in sight.

  For matrices over the extended reals, X of n rows and K columns, W of n' rows and K columns, and a one-row matrix
  B of n' entries, the layer's output entry (r, c) is B(0, c) + Σ_k X(r, k) · W(c, k). The kernel builds that sum in
  slabs of 512 consecutive values of k: after n slabs the entry holds `partialOut … n`, and each further slab adds
  its own dot product `slabDot`. Only that the sum over the first 512·(n+1) indices is the sum over the first 512·n
  plus the sum over the next 512, and associativity of addition, are used: both hold on the extended reals with no
  finiteness assumption, so infinite entries need no separate treatment.

  Entries are read at natural-number coordinates (zero outside the matrix), so that tile offsets are plain
  arithmetic.
-/
import Idealize.ShloMosaic.Lib.ValueIdx
import Idealize.ShloMosaic.PureOps.Ideal
import Mathlib.Algebra.BigOperators.Group.Finset.Basic

noncomputable section

open scoped BigOperators
open Idealize.ShloMosaic Idealize.ShloMosaic.ValueIdx

namespace Cert.QuantLinear

/-- Entry (r, c) of a matrix, at natural coordinates; zero outside the matrix. -/
def entry {n0 n1 : ℕ} (A : (⟨2, ![n0, n1]⟩ : Shape).Idx → EReal) (r c : ℕ) : EReal :=
  if h : r < n0 ∧ c < n1 then A (ix2 ⟨r, h.1⟩ ⟨c, h.2⟩) else 0

theorem entry_ix2 {n0 n1 : ℕ} (A : (⟨2, ![n0, n1]⟩ : Shape).Idx → EReal) (a : Fin n0) (b : Fin n1) :
    A (ix2 a b) = entry A a.val b.val := by
  unfold entry
  rw [dif_pos ⟨a.isLt, b.isLt⟩]

/-- A matrix at an index whose two coordinates are known as naturals. -/
theorem entry_of_val {n0 n1 : ℕ} (A : (⟨2, ![n0, n1]⟩ : Shape).Idx → EReal) (j : (⟨2, ![n0, n1]⟩ : Shape).Idx)
    (r c : ℕ) (h0 : (j 0).val = r) (h1 : (j 1).val = c) : A j = entry A r c := by
  subst h0 h1
  exact (congrArg A (eq_ix2 j)).trans (entry_ix2 A (j 0) (j 1))

/-- Two matrices that agree entrywise have the same natural-coordinate reads. -/
theorem entry_congr {n0 n1 : ℕ} {A A' : (⟨2, ![n0, n1]⟩ : Shape).Idx → EReal} (h : A = A') (r c : ℕ) :
    entry A r c = entry A' r c := by rw [h]

section Layer

variable {nx nw K : ℕ} (X : (⟨2, ![nx, K]⟩ : Shape).Idx → EReal) (W : (⟨2, ![nw, K]⟩ : Shape).Idx → EReal)
  (B : (⟨2, ![1, nw]⟩ : Shape).Idx → EReal)

/-- The dot product of row r of X with row c of W over slab s of the contraction axis (indices 512·s … 512·s + 511). -/
def slabDot (r c s : ℕ) : EReal :=
  ∑ kk ∈ Finset.range 512, entry X r (512 * s + kk) * entry W c (512 * s + kk)

/-- The output entry (r, c) after the first n slabs: the bias plus the dot product over the first 512·n indices. -/
def partialOut (r c n : ℕ) : EReal :=
  entry B 0 c + ∑ k ∈ Finset.range (512 * n), entry X r k * entry W c k

theorem partialOut_zero (r c : ℕ) : partialOut X W B r c 0 = entry B 0 c := by
  unfold partialOut
  rw [Nat.mul_zero, Finset.sum_range_zero, add_zero]

/-- One more slab adds its dot product. -/
theorem partialOut_succ (r c n : ℕ) : partialOut X W B r c (n + 1) = partialOut X W B r c n + slabDot X W r c n := by
  unfold partialOut slabDot
  rw [Nat.mul_succ, Finset.sum_range_add, add_assoc]

/-- The first slab over the bare bias. -/
theorem partialOut_one (r c : ℕ) : partialOut X W B r c 1 = entry B 0 c + slabDot X W r c 0 := by
  rw [partialOut_succ, partialOut_zero]

end Layer

end Cert.QuantLinear

end
-- ==== Proof.Body.lean ====
/-
  The visit's arithmetic at one entry of the tile, over the extended reals.

  Entry (p, q) of the tile after a visit is the entry before it plus Σ_{kk < 512} a(p, kk) · w(q, kk), where a is
  the visit's [1024, 512] slab of activations and w its [2048, 512] slab of weights: the narrowing of the
  activations to bf16 changes nothing over the extended reals, the matrix unit's product into a zero accumulator is
  the plain sum over the contracted axis, and the weights enter transposed, so the product's (kk, q) operand entry is
  w(q, kk). The bias tile is the bias row repeated: its entry (p, q) is b(0, q).
-/
import proofs.«425820_j26534307954843_3_alg».proof.Proof.Gen.KernelIdeal.Skeleton
import proofs.«425820_j26534307954843_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QuantLinear

/-! The operand indices of the tile product: output (p, q), contraction index kk ↦ left (p, kk), right (kk, q). -/

theorem lhs_row (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_contr (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_contr (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_col (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The tile product into a zero accumulator, at entry (p, q): the sum over the 512 contracted indices. -/
theorem tile_product (a : FVec Ideal S1024x512 .bf16) (bt : FVec Ideal S512x2048 .bf16) (p : Fin 1024) (q : Fin 2048) :
    matmul dot_S1024x512_S512x2048_S1024x2048_1_0_0_1_n_n none a bt (constant (F := Ideal) S1024x2048 .f32 0x00000000#32) (ix2 p q)
      = ∑ kk : Fin 512, a (ix2 p kk) * bt (ix2 kk q) := by
  show FloatOps.matmul dot_S1024x512_S512x2048_S1024x2048_1_0_0_1_n_n none a bt (constant (F := Ideal) S1024x2048 .f32 0x00000000#32) (ix2 p q) = _
  rw [Ideal.matmul_constant_zero_apply, ← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 p q) ((ValueIdx.contrEquiv1 dot_S1024x512_S512x2048_S1024x2048_1_0_0_1_n_n 512 rfl rfl).symm k) = ix2 p k := funext fun a => Fin.ext (by
    match a with
    | ⟨0, _⟩ => exact lhs_row _ _
    | ⟨1, _⟩ => exact (lhs_contr _ _).trans hk)
  have er : dot_S1024x512_S512x2048_S1024x2048_1_0_0_1_n_n.rhsIdx (ix2 p q) ((ValueIdx.contrEquiv1 dot_S1024x512_S512x2048_S1024x2048_1_0_0_1_n_n 512 rfl rfl).symm k) = ix2 k q := funext fun a => Fin.ext (by
    match a with
    | ⟨0, _⟩ => exact (rhs_contr _ _).trans hk
    | ⟨1, _⟩ => exact rhs_col _ _)
  rw [el, er]

/-- The transposed weight slab at (kk, q) is the slab at (q, kk). -/
theorem transposed_slab (w : FVec Ideal S2048x512 .bf16) (kk : Fin 512) (q : Fin 2048) :
    transpose S512x2048 [1, 0] w transposes_S2048x512_p1_0_S512x2048 (ix2 kk q) = w (ix2 q kk) :=
  transpose_apply [1, 0] w transposes_S2048x512_p1_0_S512x2048 (ix2 kk q) (ix2 q kk) (fun b => by
    match b with
    | ⟨0, _⟩ => rfl
    | ⟨1, _⟩ => rfl)

/-- A visit's store at entry (p, q): what the tile held there plus the visit's slab dot product. -/
theorem visit_entry (a : Vec Ideal S1024x512 .f32) (w : Vec Ideal S2048x512 .bf16) (acc : Vec Ideal S1024x2048 .f32)
    (p : Fin 1024) (q : Fin 2048) :
    k0_pay2 (F := Ideal) a w acc (ix2 p q) = acc (ix2 p q) + ∑ kk : Fin 512, a (ix2 p kk) * w (ix2 q kk) := by
  unfold k0_pay2
  simp only [shapeCast_self]
  rw [addf_apply, tile_product]
  refine congrArg (acc (ix2 p q) + ·) (Finset.sum_congr rfl fun kk _ => ?_)
  rw [transposed_slab, truncf_apply]

/-- The bias tile at entry (p, q): the bias row's entry q. -/
theorem bias_tile_entry (b : Vec Ideal S1x2048 .f32) (p : Fin 1024) (q : Fin 2048) :
    k0_pay1 (F := Ideal) b (ix2 p q) = b (ix2 0 q) := by
  unfold k0_pay1
  simp only [shapeCast_self]
  exact broadcastTo_apply b broadcasts_S1x2048_S1024x2048 (ix2 p q) (ix2 0 q) (fun a => by
    match a with
    | ⟨0, _⟩ => rfl
    | ⟨1, _⟩ => rfl)

end Cert.KernelIdeal.Acc

end
-- ==== Proof.Tile.lean ====
/-
  What the output tile holds after each point of the grid.

  The 128 points are numbered row tile first, then column tile, then slab: point n visits row tile n / 16, column
  tile n / 8 mod 2 and slab n mod 8 of the contraction axis. Its activation block is rows 1024·(n/16) … and columns
  512·(n mod 8) … of the [8192, 4096] activations; its weight block rows 2048·(n/8 mod 2) … and the same columns of
  the [4096, 4096] weights; its bias block columns 2048·(n/8 mod 2) … of the bias row. By induction on n, entry
  (p, q) of the tile after point n is the bias plus the dot product over the first 512·(n mod 8 + 1) contraction
  indices: a point with n mod 8 = 0 starts from the bias and adds slab 0, every other point adds slab n mod 8 to what
  point n − 1 left, and n − 1 has the same row and column tile.
-/
import proofs.«425820_j26534307954843_3_alg».proof.Proof.Pieces
import proofs.«425820_j26534307954843_3_alg».proof.Proof.Body

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QuantLinear

variable (m : (ℓ : Loc nD τ sig) → Buf (Elt Ideal) ℓ)

/-- The three arrays the region reads, as it finds them, and a point's three blocks, at their literal shapes. -/
abbrev actArr (c : Dev nD) : Vec Ideal S8192x4096 .f32 := V m c main_v27
abbrev wgtArr (c : Dev nD) : Vec Ideal S4096x4096 .bf16 := V m c main_v25
abbrev biasArr (c : Dev nD) : Vec Ideal S1x4096 .f32 := V m c main_v26
abbrev actBlk (c : Dev nD) (t : Fin cfg0.N) : Vec Ideal S1024x512 .f32 := iblk m c 0 t
abbrev wgtBlk (c : Dev nD) (t : Fin cfg0.N) : Vec Ideal S2048x512 .bf16 := iblk m c 1 t
abbrev biasBlk (c : Dev nD) (t : Fin cfg0.N) : Vec Ideal S1x2048 .f32 := iblk m c 2 t

/-- Which block of each array point t works on, decided over the 128 points. -/
theorem tile_indices : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

theorem act_read (c : Dev nD) (t : Fin cfg0.N) (p : Fin 1024) (kk : Fin 512) :
    actBlk m c t (ix2 p kk) = entry (actArr m c) (t.val / 16 * 1024 + p.val) (512 * (t.val % 8) + kk.val) := by
  obtain ⟨e0, e1, -⟩ := tile_indices t
  show ((cfg0.win 0).blk t).view.read (Elt Ideal) (V m c (Pipeline.arrRef spec0 0)) (ix2 p kk) = _
  rw [View.read_apply]
  refine entry_of_val (actArr m c) _ _ _ ?_ ?_
  · show win0_0.index t (0 : Fin 2) * 1024 + 1 * p.val = _
    omega
  · show win0_0.index t (1 : Fin 2) * 512 + 1 * kk.val = _
    omega

theorem wgt_read (c : Dev nD) (t : Fin cfg0.N) (q : Fin 2048) (kk : Fin 512) :
    wgtBlk m c t (ix2 q kk) = entry (wgtArr m c) (t.val / 8 % 2 * 2048 + q.val) (512 * (t.val % 8) + kk.val) := by
  obtain ⟨-, -, e2, e3, -⟩ := tile_indices t
  show ((cfg0.win 1).blk t).view.read (Elt Ideal) (V m c (Pipeline.arrRef spec0 1)) (ix2 q kk) = _
  rw [View.read_apply]
  refine entry_of_val (wgtArr m c) _ _ _ ?_ ?_
  · show win0_1.index t (0 : Fin 2) * 2048 + 1 * q.val = _
    omega
  · show win0_1.index t (1 : Fin 2) * 512 + 1 * kk.val = _
    omega

theorem bias_read (c : Dev nD) (t : Fin cfg0.N) (q : Fin 2048) :
    biasBlk m c t (ix2 0 q) = entry (biasArr m c) 0 (t.val / 8 % 2 * 2048 + q.val) := by
  obtain ⟨-, -, -, -, e4, e5, -⟩ := tile_indices t
  show ((cfg0.win 2).blk t).view.read (Elt Ideal) (V m c (Pipeline.arrRef spec0 2)) (ix2 0 q) = _
  rw [View.read_apply]
  refine entry_of_val (biasArr m c) _ _ _ ?_ ?_
  · show win0_2.index t (0 : Fin 2) * 1 + 1 * 0 = _
    omega
  · show win0_2.index t (1 : Fin 2) * 2048 + 1 * q.val = _
    omega

/-- A point's slab dot product, over its blocks, is the layer's slab dot product at the point's tile offsets. -/
theorem visit_slab (c : Dev nD) (t : Fin cfg0.N) (p : Fin 1024) (q : Fin 2048) :
    ∑ kk : Fin 512, actBlk m c t (ix2 p kk) * wgtBlk m c t (ix2 q kk)
      = slabDot (actArr m c) (wgtArr m c) (t.val / 16 * 1024 + p.val) (t.val / 8 % 2 * 2048 + q.val) (t.val % 8) := by
  unfold slabDot
  rw [Finset.sum_range]
  refine Finset.sum_congr rfl fun kk _ => ?_
  rw [act_read, wgt_read]

/-- The tile after a point that starts a run of eight. -/
theorem tile_first (c : Dev nD) (t : Fin cfg0.N) (h0 : t.val % 8 = 0) :
    outsAt0 m c t.val t.isLt = k0_pay2 (actBlk m c t) (wgtBlk m c t) (k0_pay1 (biasBlk m c t)) :=
  (outsAt0_A m c t h0).trans (first_visit (F := Ideal) c (grid0.coords t) (ms0_0 t) (hs0_0 t) (ms0_1 t) (hs0_1 t) (ms0_2 t) (hs0_2 t) (ms0_3 t) (hs0_3 t) ((hcond0_0 t).mpr h0)
    (iblk m c 0 t) (iblk m c 1 t) (iblk m c 2 t))

/-- The tile after any other point, over what the point before left. -/
theorem tile_later (c : Dev nD) (n : ℕ) (h : n + 1 < cfg0.N) (h0 : ¬(n + 1) % 8 = 0) :
    outsAt0 m c (n + 1) h
      = k0_pay2 (actBlk m c ⟨n + 1, h⟩) (wgtBlk m c ⟨n + 1, h⟩) (outsAt0 m c n (Nat.lt_of_succ_lt h)) :=
  (outsAt0_B m c ⟨n + 1, h⟩ h0).trans (later_visit (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
    (fun hh => h0 ((hcond0_0 ⟨n + 1, h⟩).mp hh))
    (iblk m c 0 ⟨n + 1, h⟩) (iblk m c 1 ⟨n + 1, h⟩) (iblk m c 2 ⟨n + 1, h⟩) (outsAt0 m c n (Nat.lt_of_succ_lt h)))

/-- THE INVARIANT: entry (p, q) of the tile after point n. -/
theorem tile_after (c : Dev nD) : ∀ (n : ℕ) (h : n < cfg0.N) (p : Fin 1024) (q : Fin 2048),
    outsAt0 m c n h (ix2 p q)
      = partialOut (actArr m c) (wgtArr m c) (biasArr m c) (n / 16 * 1024 + p.val) (n / 8 % 2 * 2048 + q.val) (n % 8 + 1)
  | 0, h, p, q => by
    rw [tile_first m c ⟨0, h⟩ rfl, visit_entry, bias_tile_entry, visit_slab, bias_read]
    exact (partialOut_one _ _ _ _ _).symm
  | n + 1, h, p, q => by
    by_cases h0 : (n + 1) % 8 = 0
    · rw [tile_first m c ⟨n + 1, h⟩ h0, visit_entry, bias_tile_entry, visit_slab, bias_read]
      dsimp only
      rw [h0]
      exact (partialOut_one _ _ _ _ _).symm
    · rw [tile_later m c n h h0, visit_entry, visit_slab, tile_after c n (Nat.lt_of_succ_lt h) p q]
      dsimp only
      have e1 : (n + 1) / 16 = n / 16 := by omega
      have e2 : (n + 1) / 8 % 2 = n / 8 % 2 := by omega
      have e3 : (n + 1) % 8 = n % 8 + 1 := by omega
      rw [e1, e2, e3]
      exact (partialOut_succ _ _ _ _ _ _).symm

end Cert.KernelIdeal.Acc

end
-- ==== Proof.Layer.lean ====
/-
  The whole [8192, 4096] product, and the result the program returns.

  A tile is written back to the product array at the last of its eight points (n mod 8 = 7), when it holds the bias
  plus the dot product over all 8 · 512 = 4096 contraction indices: so what is written is the tile's block of ONE
  function of the whole arrays, entry (r, c) ↦ B(0, c) + Σ_{k < 4096} X(r, k) · W(c, k). Entry (r, c) lies in the
  tile of row tile r / 1024 and column tile c / 2048, whose last point is 16·(r / 1024) + 8·(c / 2048) + 7; the
  sixteen tiles therefore cover the array, which ends holding that function. The program's result is that array
  re-laid as [4, 2048, 4096].
-/
import proofs.«425820_j26534307954843_3_alg».proof.Proof.Tile
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QuantLinear

variable (m : (ℓ : Loc nD τ sig) → Buf (Elt Ideal) ℓ) (ρ : Dev nD → PrngReg)

/-- The layer's output over the arrays the region finds: the bias plus the full dot product. -/
def layerOut (c : Dev nD) : Vec Ideal S8192x4096 .f32 :=
  fun j => partialOut (actArr m c) (wgtArr m c) (biasArr m c) (j 0).val (j 1).val 8

/-- What a tile's last point writes back is the tile's block of `layerOut`. -/
theorem flushed_eq (c : Dev nD) (t : Fin cfg0.N) (hf : (cfg0.win 3).flush t = true) :
    (dats m 0 c).flushed 3 t = ((cfg0.win 3).blk t).view.read (Elt Ideal) (layerOut m c) := by
  have h7 : t.val % 8 = 7 := (flush0_3 t).mp hf
  obtain ⟨-, -, -, -, -, -, e6, e7⟩ := tile_indices t
  show (cfg0.win 3).cut (grid0.coords t) ((dats m 0 c).after 3 t) = _
  rw [after0_3]
  funext y
  obtain ⟨p, q, rfl⟩ : ∃ (p : Fin 1024) (q : Fin 2048), y = ix2 p q := ⟨y 0, y 1, eq_ix2 y⟩
  show outsAt0 m c t.val t.isLt (ix2 p q) = layerOut m c (((cfg0.win 3).blk t).view.emb (ix2 p q))
  rw [tile_after m c t.val t.isLt p q, h7]
  unfold layerOut
  have r0 : ((((cfg0.win 3).blk t).view.emb (ix2 p q)) 0).val = t.val / 16 * 1024 + p.val := by
    show win0_3.index t (0 : Fin 2) * 1024 + 1 * p.val = _
    omega
  have r1 : ((((cfg0.win 3).blk t).view.emb (ix2 p q)) 1).val = t.val / 8 % 2 * 2048 + q.val := by
    show win0_3.index t (1 : Fin 2) * 2048 + 1 * q.val = _
    omega
  rw [r0, r1]

/-- An entry of the product array is in point t's tile iff each coordinate is in the tile's range. -/
theorem mem_tile (t : Fin cfg0.N) (i : S8192x4096.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v28).slice (win0_3.rect t)).set ↔ _
  rw [View.set_slice_whole, Rect.mem_set_unit]
  exact Iff.rfl

/-- Every entry lies in the tile some last-of-eight point writes back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = (i 0).val / 1024 * 16 + (i 1).val / 2048 * 8 + 7 :=
    ⟨⟨(i 0).val / 1024 * 16 + (i 1).val / 2048 * 8 + 7, by rw [hN]; omega⟩, rfl⟩
  obtain ⟨-, -, -, -, -, -, e6, e7⟩ := tile_indices t
  refine ⟨t, (flush0_3 t).mpr (by omega), ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2048 ≤ (i 1).val ∧ (i 1).val < win0_3.index t (1 : Fin 2) * 2048 + 2048
    omega

/-- The product array after the region. -/
theorem product_final (c : Dev nD) : (dats m 0 c).arrAt 3 cfg0.N = layerOut m c :=
  (dats m 0 c).arrAt_eq_of_cover 3 (layerOut m c) (flushed_eq m c) covered

/-- The program's result: the product re-laid as [4, 2048, 4096]. -/
theorem result_eq (c : Dev nD) :
    Pipeline.afterTail₀ cfgs (dats m) 0 (V0 m) [hostOps1] c main_v29
      = shapeCast S4x2048x4096 (layerOut m c) shapeCasts_S8192x4096_S4x2048x4096 := by
  unfold Pipeline.afterTail₀
  show StableHlo.after hostOps1 _ (Proc.devRef .tc main_v29) = _
  after_results
  rw [show Pipeline.withArrays (cfgs 0).spec c (V0 m c) (fun w => (dats m 0 c).arrAt w (cfgs 0).N)
      (Proc.tc.devRef main_v28) = layerOut m c from
    (Pipeline.withArrays_arr spec0 launch0.win.arr_inj c _ _ 3).trans (product_final m c)]
  rfl

/-- The kernel program's run, read: the result at the re-laid product, the six arguments unchanged. -/
theorem run : θ_run defs (onTc (τ := τ) (main (F := Ideal))) ⟨m, fun _ => 0, ρ⟩ fun r => ∀ c : Dev nD,
      r.2.mem ((c.tc : Thread nD τ).loc main_v29)
        = shapeCast S4x2048x4096 (layerOut m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Acc

end
-- ==== Proof.Inputs.lean ====
/-
  What the region finds in its three arrays, in terms of the program's arguments.

  Before the region the program re-lays the activations [4, 2048, 4096] as [8192, 4096] and the bias [4096] as one
  row [1, 4096], and dequantizes the packed weights: each 32-bit word yields two 4-bit codes (low nibble, then the
  next nibble), a code selects an entry of the 16-entry table, and the entry is scaled by the scale of its row and
  group. The reference program dequantizes with the very same operations on the very same arguments, so the weight
  array the region finds is the reference's weight matrix; the kernel's final narrowing of it to bf16 changes
  nothing over the extended reals.
-/
import proofs.«425820_j26534307954843_3_alg».proof.Proof.Tile
import proofs.«425820_j26534307954843_3_alg».proof.Proof.Gen.ReferenceIdeal.Read
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QuantLinear

variable (m : (ℓ : Loc nD τ sig) → Buf (Elt Ideal) ℓ)

/-- The activations the region reads: the argument re-laid as [8192, 4096]. -/
theorem act_from_arg (c : Dev nD) :
    actArr m c = shapeCast S8192x4096 (m ((c : Thread nD τ).loc main_arg0)) shapeCasts_S4x2048x4096_S8192x4096 := by
  show StableHlo.after hostOps0 (fun b => m (c, b)) (Proc.devRef .tc main_v27) = _
  after_results
  rfl

/-- The bias row the region reads: the argument re-laid as [1, 4096]. -/
theorem bias_from_arg (c : Dev nD) :
    biasArr m c = shapeCast S1x4096 (m ((c : Thread nD τ).loc main_arg3)) shapeCasts_S4096_S1x4096 := by
  show StableHlo.after hostOps0 (fun b => m (c, b)) (Proc.devRef .tc main_v26) = _
  after_results
  rfl

set_option maxHeartbeats 2000000 in
/-- The weights the region reads are the reference's dequantized weight matrix of the same four arguments. -/
theorem wgt_from_args (c : Dev nD) :
    wgtArr m c = Cert.ReferenceIdeal.Read.val_main_v24 (F := Ideal) (m ((c : Thread nD τ).loc main_arg1))
      (m ((c : Thread nD τ).loc main_arg2)) (m ((c : Thread nD τ).loc main_arg4)) (m ((c : Thread nD τ).loc main_arg5)) := by
  show StableHlo.after hostOps0 (fun b => m (c, b)) (Proc.devRef .tc main_v25) = _
  after_results
  simp only [Cert.ReferenceIdeal.Read.val_main_c, Cert.ReferenceIdeal.Read.val_main_v0, Cert.ReferenceIdeal.Read.val_main_v1, Cert.ReferenceIdeal.Read.val_main_c_0, Cert.ReferenceIdeal.Read.val_main_v2, Cert.ReferenceIdeal.Read.val_main_v3, Cert.ReferenceIdeal.Read.val_main_c_1, Cert.ReferenceIdeal.Read.val_main_v4, Cert.ReferenceIdeal.Read.val_main_v5, Cert.ReferenceIdeal.Read.val_main_v6, Cert.ReferenceIdeal.Read.val_main_v7, Cert.ReferenceIdeal.Read.val_main_v8, Cert.ReferenceIdeal.Read.val_main_v9, Cert.ReferenceIdeal.Read.val_main_c_2, Cert.ReferenceIdeal.Read.val_main_v10, Cert.ReferenceIdeal.Read.val_main_v11, Cert.ReferenceIdeal.Read.val_main_c_3, Cert.ReferenceIdeal.Read.val_main_v12, Cert.ReferenceIdeal.Read.val_main_v13, Cert.ReferenceIdeal.Read.val_main_v14, Cert.ReferenceIdeal.Read.val_main_v15, Cert.ReferenceIdeal.Read.val_main_v16, Cert.ReferenceIdeal.Read.val_main_c_4, Cert.ReferenceIdeal.Read.val_main_v17, Cert.ReferenceIdeal.Read.val_main_v18, Cert.ReferenceIdeal.Read.val_main_c_5, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_v24]
  rfl

end Cert.KernelIdeal.Acc

end
-- ==== Proof.Agree.lean ====
/-
  The two programs return the same array.

  Entry (b, s, o) of the kernel's result is entry (2048·b + s, o) of the product, the bias B(0, o) plus
  Σ_{k < 4096} X(2048·b + s, k) · W(o, k), where X is the activations re-laid as [8192, 4096] — so X(2048·b + s, k) is
  the argument's entry (b, s, k) —, W the dequantized weights and B the bias re-laid as a row. The reference's entry
  (b, s, o) is Σ_{k < 4096} x(b, s, k) · W(o, k) plus bias(o), over the same W. The two differ by the order of one
  addition, and addition of extended reals is commutative.
-/
import proofs.«425820_j26534307954843_3_alg».proof.Proof.Layer
import proofs.«425820_j26534307954843_3_alg».proof.Proof.Inputs

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.QuantLinear

variable (m : (ℓ : Loc nD τ sig) → Buf (Elt Ideal) ℓ)

/-- The re-laid activations at row 2048·b + s, column k: the argument at (b, s, k). -/
theorem act_entry (c : Dev nD) (b : Fin 4) (s : Fin 2048) (k : Fin 4096) :
    entry (actArr m c) (b.val * 2048 + s.val) k.val = (m ((c : Thread nD τ).loc main_arg0)) (ix3 b s k) := by
  have hr : b.val * 2048 + s.val < 8192 := by have := b.isLt; have := s.isLt; omega
  refine (entry_congr (act_from_arg m c) _ _).trans ((entry_ix2 _ ⟨b.val * 2048 + s.val, hr⟩ k).symm.trans ?_)
  exact shapeCast_apply _ shapeCasts_S4x2048x4096_S8192x4096 (ix2 ⟨b.val * 2048 + s.val, hr⟩ k) (ix3 b s k)
    (by rw [Shape.rowMajor_val_three, Shape.rowMajor_val_two]; rfl)

/-- The bias row at column o: the argument at o. -/
theorem bias_entry (c : Dev nD) (o : Fin 4096) :
    entry (biasArr m c) 0 o.val = (m ((c : Thread nD τ).loc main_arg3)) (ix1 o) := by
  refine (entry_congr (bias_from_arg m c) _ _).trans ((entry_ix2 _ (0 : Fin 1) o).symm.trans ?_)
  exact shapeCast_apply _ shapeCasts_S4096_S1x4096 (ix2 (0 : Fin 1) o) (ix1 o)
    (by rw [Shape.rowMajor_val_one, Shape.rowMajor_val_two]; simp)

/-- The weights at (o, k): the reference's weight matrix at (o, k). -/
theorem wgt_entry (c : Dev nD) (o k : Fin 4096) :
    entry (wgtArr m c) o.val k.val
      = Cert.ReferenceIdeal.Read.val_main_v24 (F := Ideal) (m ((c : Thread nD τ).loc main_arg1)) (m ((c : Thread nD τ).loc main_arg2)) (m ((c : Thread nD τ).loc main_arg4)) (m ((c : Thread nD τ).loc main_arg5)) (ix2 o k) :=
  (entry_congr (wgt_from_args m c) _ _).trans (entry_ix2 _ o k).symm

/-- THE AGREEMENT: the kernel's result is the reference's, as functions of the same arguments. -/
theorem results_agree (c : Dev nD) :
    shapeCast S4x2048x4096 (layerOut m c) shapeCasts_S8192x4096_S4x2048x4096
      = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  rw [shapeCast_apply (layerOut m c) shapeCasts_S8192x4096_S4x2048x4096 (ix3 b s o) (ix2 ⟨b.val * 2048 + s.val, hr⟩ o)
    (by rw [Shape.rowMajor_val_three, Shape.rowMajor_val_two]; rfl)]
  rw [Cert.ReferenceIdeal.Read.val_main_v28_apply, Cert.ReferenceIdeal.Read.val_main_v25_apply, Cert.ReferenceIdeal.Read.val_main_v27_apply, Cert.ReferenceIdeal.Read.val_main_v26_apply]
  show partialOut (actArr m c) (wgtArr m c) (biasArr m c) (b.val * 2048 + s.val) o.val 8 = _ + _
  unfold partialOut
  rw [bias_entry, show 512 * 8 = 4096 from rfl, Finset.sum_range, add_comm]
  refine congrArg₂ (· + ·) (Finset.sum_congr rfl fun k _ => ?_)
    (congrArg _ (funext fun a => Fin.ext (by match a with | ⟨0, _⟩ => rfl)))
  have el : Cert.ReferenceIdeal.Read.lidx_main_v25 (ix3 b s o) k = ix3 b s k := funext fun a => by
    match a with
    | ⟨0, _⟩ => rfl
    | ⟨1, _⟩ => rfl
    | ⟨2, _⟩ => rfl
  have er : Cert.ReferenceIdeal.Read.ridx_main_v25 (ix3 b s o) k = ix2 o k := funext fun a => by
    match a with
    | ⟨0, _⟩ => rfl
    | ⟨1, _⟩ => rfl
  rw [act_entry, wgt_entry, el, er]

end Cert.KernelIdeal.Acc

end
-- ==== Proof.lean ====
/-
  A quantized linear layer: y = x · Wᵀ + bias, with W dequantized from packed 4-bit codes.

  Both programs build the same [4096, 4096] weight matrix W from the packed codes, the 16-entry table, the grouped
  scales and the group indices, with the same operations. The reference then contracts the [4, 2048, 4096]
  activations with W over the last axis of each and adds the bias. The kernel re-lays the activations as
  [8192, 4096], and over a grid of 8 row tiles × 2 column tiles × 8 slabs of the contraction axis keeps a
  [1024, 2048] tile of the product: the first slab's visit stores the bias row down the tile and adds its partial
  product, each later visit adds its own, and the tile is written back after the eighth. Over the extended reals a
  narrowing of the float format is the identity, so entry (r, c) of the product is bias(c) + Σ_{k < 4096} x(r, k) ·
  W(c, k), the eight partial sums regrouped into one (associativity); the reference's entry is the same sum plus the
  bias on the other side (commutativity). Neither law needs finite entries, so the precondition is not opened.

  Proof/Spec.lean states the sums; Proof/Pieces.lean and Proof/Body.lean read one visit; Proof/Tile.lean is the
  induction over the grid's points; Proof/Layer.lean the whole product and the program's result; Proof/Inputs.lean
  the arrays the region finds; Proof/Agree.lean the entrywise agreement with the reference.
-/
import proofs.«425820_j26534307954843_3_alg».proof.Defs
import proofs.«425820_j26534307954843_3_alg».proof.Proof.Gen.Kernel
import proofs.«425820_j26534307954843_3_alg».proof.Proof.Gen.Kernel.Frame
import proofs.«425820_j26534307954843_3_alg».proof.Proof.Gen.KernelIdeal
import proofs.«425820_j26534307954843_3_alg».proof.Proof.Gen.KernelIdeal.Frame
import proofs.«425820_j26534307954843_3_alg».proof.Proof.Gen.ReferenceIdeal
import proofs.«425820_j26534307954843_3_alg».proof.Proof.Gen.Pre_finite_inputs
import proofs.«425820_j26534307954843_3_alg».proof.Proof.Gen.ReferenceIdeal.Run
import proofs.«425820_j26534307954843_3_alg».proof.Proof.Gen.ReferenceIdeal.Read
import proofs.«425820_j26534307954843_3_alg».proof.Proof.Agree
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the same array: the kernel's run ends at the re-laid product,
    the reference's at its last stage, and the two are one function of arguments that agree. -/
theorem algebraic : Cert.algebraic_KernelIdeal_ReferenceIdeal := by
  intro m ρ m' ρ' _ hagree
  refine ⟨fun c => shapeCast Cert.KernelIdeal.S4x2048x4096 (Cert.KernelIdeal.Acc.layerOut m c) Cert.KernelIdeal.Gen.shapeCasts_S8192x4096_S4x2048x4096,
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2]
  exact (Cert.KernelIdeal.Acc.results_agree m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
